-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S128 .f32) (main_arg5 : FVec F S128x5 .f32) (main_arg6 : FVec F S5 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x5 .f32 := Host.absf main_arg5
  let main_cst_8 : FVec F S_ .f32 := constant S_ .f32 0x7F800000#32
  let main_v25 : FVec F S128x5 .f32 := broadcastInDim S128x5 ![] bcast_S_S128x5 main_cst_8
  let main_v26 : IVec S128x5 1 := cmpf .olt main_v24 main_v25
  let main_c_9 : IVec S_ 1 := constantI S_ 1 1#1
  let main_v27 : IVec S_ 1 := (fun x v => Host.reduce IntOp.andi x v reducesTo_S128x5_S_d0_1 h_S_) main_v26 main_c_9
  let main_v28 : IVec S_ 1 := andi main_v23 main_v27
  let main_v29 : FVec F S5 .f32 := Host.absf main_arg6
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S100000 .f32) (main_arg1 : FVec F S1x128 .f32) (main_arg2 : FVec F S128 .f32) (main_arg3 : FVec F S128x128 .f32) (main_arg4 : FVec F S128 .f32) (main_arg5 : FVec F S128x5 .f32) (main_arg6 : FVec F S5 .f32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000 : Shape := ⟨1, ![100000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S100000x1 : Shape := ⟨2, ![100000, 1]⟩
abbrev S1x5 : Shape := ⟨2, ![1, 5]⟩
abbrev S100000x5 : Shape := ⟨2, ![100000, 5]⟩
abbrev S4000x1 : Shape := ⟨2, ![4000, 1]⟩
abbrev S4000x5 : Shape := ⟨2, ![4000, 5]⟩
abbrev S4000x128 : Shape := ⟨2, ![4000, 128]⟩

abbrev nBuf : Space → Nat
  | .hbm => 12
  | .vmem => 10
  | .smem => 0
  | _ => 0

abbrev bufTy : (tb : Table) → Fin (tcTables nBuf tb) → BufTy
  | .hbm, ⟨0, _⟩ => ⟨S100000, .f32⟩
  | .hbm, ⟨1, _⟩ => ⟨S1x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x5, .f32⟩
  | .hbm, ⟨6, _⟩ => ⟨S5, .f32⟩
  | .hbm, ⟨7, _⟩ => ⟨S100000x1, .f32⟩
  | .hbm, ⟨8, _⟩ => ⟨S1x128, .f32⟩
  | .hbm, ⟨9, _⟩ => ⟨S1x128, .f32⟩
  | .hbm, ⟨10, _⟩ => ⟨S1x5, .f32⟩
  | .hbm, ⟨11, _⟩ => ⟨S100000x5, .f32⟩
  | .local _ .vmem, ⟨0, _⟩ => ⟨S4000x1, .f32⟩
  | .local _ .vmem, ⟨1, _⟩ => ⟨S4000x1, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x5, .f32⟩
  | .local _ .vmem, ⟨7, _⟩ => ⟨S1x5, .f32⟩
  | .local _ .vmem, ⟨8, _⟩ => ⟨S4000x5, .f32⟩
  | .local _ .vmem, ⟨9, _⟩ => ⟨S4000x5, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x5 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S100000_S100000x1 : S100000.ShapeCasts S100000x1
  shapeCasts_S128_S1x128 : S128.ShapeCasts S1x128
  shapeCasts_S5_S1x5 : S5.ShapeCasts S1x5
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x128_S1x128_0_0 : ∀ a, (![0, 0] : Fin 2 → Nat) a + S1x128.size a ≤ S1x128.size a
  h_S1x128 : 0 < S1x128.numel
  broadcasts_S4000x1_S4000x128 : S4000x1.Broadcasts S4000x128
  broadcasts_S1x128_S4000x128 : S1x128.Broadcasts S4000x128
  shapeCasts_S1x128_S1x128 : S1x128.ShapeCasts S1x128
  inb_S128x128_S128x128_0_0 : ∀ a, (![0, 0] : Fin 2 → Nat) a + S128x128.size a ≤ S128x128.size a
  h_S128x128 : 0 < S128x128.numel
  inb_S128x5_S128x5_0_0 : ∀ a, (![0, 0] : Fin 2 → Nat) a + S128x5.size a ≤ S128x5.size a
  h_S128x5 : 0 < S128x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S4000x5 : S1x5.Broadcasts S4000x5
  inb_S4000x5_S4000x5_0_0 : ∀ a, (![0, 0] : Fin 2 → Nat) a + S4000x5.size a ≤ S4000x5.size a
  h_S4000x5 : 0 < S4000x5.numel
  dot_S4000x128_S128x128_S4000x128_1_0_0_1_n_n_wf : DotDims.WF S4000x128 S128x128 S4000x128 [1] [0] [0] [1] [] []
  dot_S4000x128_S128x5_S4000x5_1_0_0_1_n_n_wf : DotDims.WF S4000x128 S128x5 S4000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S100000x1.size a
  hwx0_0 : ∀ i : grid0.Coords, EltTy.bits .f32 = 32 ∨ (Rect.block (s := S100000x1) S4000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x5.size a ≤ S128x5.size a
  hwx0_5 : ∀ i : grid0.Coords, EltTy.bits .f32 = 32 ∨ (Rect.block (s := S128x5) S128x5.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x5.size a ≤ S1x5.size a
  hwx0_6 : ∀ i : grid0.Coords, EltTy.bits .f32 = 32 ∨ (Rect.block (s := S1x5) S1x5.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x5.size a ≤ S100000x5.size a
  hwx0_7 : ∀ i : grid0.Coords, EltTy.bits .f32 = 32 ∨ (Rect.block (s := S100000x5) S4000x5.size (cc0_transform_7 i) (hinb0_7 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x5_S4000x5_1_0_0_1_n_n : DotDims S4000x128 S128x5 S4000x5 where
  lhsContracting := [1]
  rhsContracting := [0]
  lhsNonContracting := [0]
  rhsNonContracting := [1]
  lhsBatch := []
  rhsBatch := []
  wf := dot_S4000x128_S128x5_S4000x5_1_0_0_1_n_n_wf

abbrev win0_0 : Pipeline.Window sig grid0 :=
  Pipeline.Window.ofSpec (Memref.whole main_v0) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x5.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x5.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S4000x5.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000 : Shape := ⟨1, ![100000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S100000x1 : Shape := ⟨2, ![100000, 1]⟩
abbrev S100000x128 : Shape := ⟨2, ![100000, 128]⟩
abbrev S_ : Shape := ⟨0, ![]⟩
abbrev S100000x5 : Shape := ⟨2, ![100000, 5]⟩
abbrev S1x5 : Shape := ⟨2, ![1, 5]⟩

abbrev nBuf : Space → Nat
  | .hbm => 26
  | .vmem => 0
  | .smem => 0
  | _ => 0

abbrev bufTy : (tb : Table) → Fin (tcTables nBuf tb) → BufTy
  | .hbm, ⟨0, _⟩ => ⟨S100000, .f32⟩
  | .hbm, ⟨1, _⟩ => ⟨S1x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x5, .f32⟩
  | .hbm, ⟨6, _⟩ => ⟨S5, .f32⟩
  | .hbm, ⟨7, _⟩ => ⟨S100000x1, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S_, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S_, .f32⟩
  | .hbm, ⟨20, _⟩ => ⟨S100000x128, .f32⟩
  | .hbm, ⟨21, _⟩ => ⟨S100000x128, .f32⟩
  | .hbm, ⟨22, _⟩ => ⟨S100000x5, .f32⟩
  | .hbm, ⟨23, _⟩ => ⟨S1x5, .f32⟩
  | .hbm, ⟨24, _⟩ => ⟨S100000x5, .f32⟩
  | .hbm, ⟨25, _⟩ => ⟨S100000x5, .f32⟩
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  dot_S100000x1_S1x128_S100000x128_1_0_0_1_n_n_wf : DotDims.WF S100000x1 S1x128 S100000x128 [1] [0] [0] [1] [] []
  dot_S100000x128_S128x128_S100000x128_1_0_0_1_n_n_wf : DotDims.WF S100000x128 S128x128 S100000x128 [1] [0] [0] [1] [] []
  dot_S100000x128_S128x5_S100000x5_1_0_0_1_n_n_wf : DotDims.WF S100000x128 S128x5 S100000x5 [1] [0] [0] [1] [] []

variable [Facts₀]

def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x5_S100000x5_1_0_0_1_n_n : DotDims S100000x128 S128x5 S100000x5 where
  lhsContracting := [1]
  rhsContracting := [0]
  lhsNonContracting := [0]
  rhsNonContracting := [1]
  lhsBatch := []
  rhsBatch := []
  wf := dot_S100000x128_S128x5_S100000x5_1_0_0_1_n_n_wf

class Facts : Prop extends Facts₀ where

variable [Facts]
-- ==== Proof.Network.lean ====
/-
  The network both programs compute, as mathematics over the extended reals.

  One scalar input `s` (a time value) goes through three dense layers:
    hidden1 j = max (s · w1 j + b1 j) 0                      (128 units; the first layer's weight is a single row)
    hidden2 k = max (Σ_j hidden1 j · w2 j k + b2 k) 0        (128 units)
    rowOut  l = Σ_k hidden2 k · w3 k l + b3 l                (5 outputs)
  and the result array holds, in row `r`, `rowOut` of the `r`-th of the 100000 scalars.

  The weights and biases enter as functions of plain coordinates, so that the same row function can be fed from
  arrays of either layout (a bias as a rank-1 array of 128, or as a [1, 128] block). The zero the two `max`es compare
  against is kept as the all-zero f32 word read at the ideal instance: both programs print that same word, so it is
  never evaluated.
-/
import Idealize.ShloMosaic.PureOps.Ideal
import Idealize.ShloMosaic.Lib.ValueIdx

noncomputable section

open scoped BigOperators

namespace Cert.Mlp

open Idealize.ShloMosaic Idealize.ShloMosaic.ValueIdx

/-- The threshold of both rectifiers: the all-zero f32 word at the ideal instance. -/
abbrev zeroWord : EReal := Ideal.ofBits .f32 0x00000000#32

/-- First hidden layer, unit `j`, of the scalar input `s`: the rectified affine map `max (s · w1 j + b1 j) 0`. -/
def hidden1 (w1 b1 : Fin 128 → EReal) (s : EReal) (j : Fin 128) : EReal :=
  max (s * w1 j + b1 j) zeroWord

/-- Second hidden layer, unit `k`: the rectified affine map of the first layer's 128 activations. -/
def hidden2 (w1 b1 : Fin 128 → EReal) (w2 : Fin 128 → Fin 128 → EReal) (b2 : Fin 128 → EReal) (s : EReal) (k : Fin 128) : EReal :=
  max ((∑ j : Fin 128, hidden1 w1 b1 s j * w2 j k) + b2 k) zeroWord

/-- Output `l` of the network at the scalar input `s`: the affine map of the second layer's 128 activations. -/
def rowOut (w1 b1 : Fin 128 → EReal) (w2 : Fin 128 → Fin 128 → EReal) (b2 : Fin 128 → EReal)
    (w3 : Fin 128 → Fin 5 → EReal) (b3 : Fin 5 → EReal) (s : EReal) (l : Fin 5) : EReal :=
  (∑ k : Fin 128, hidden2 w1 b1 w2 b2 s k * w3 k l) + b3 l

/-- THE RESULT ARRAY as one function of the seven argument arrays: row `r`, column `l` is output `l` of the network at
    the `r`-th scalar, the weights read from their arrays by coordinates. -/
def network (t : FVec Ideal ⟨1, ![100000]⟩ .f32) (W1 : FVec Ideal ⟨2, ![1, 128]⟩ .f32) (b1 : FVec Ideal ⟨1, ![128]⟩ .f32)
    (W2 : FVec Ideal ⟨2, ![128, 128]⟩ .f32) (b2 : FVec Ideal ⟨1, ![128]⟩ .f32)
    (W3 : FVec Ideal ⟨2, ![128, 5]⟩ .f32) (b3 : FVec Ideal ⟨1, ![5]⟩ .f32) : FVec Ideal ⟨2, ![100000, 5]⟩ .f32 :=
  fun i => rowOut (fun j => W1 (ix2 (0 : Fin 1) j)) (fun j => b1 (ix1 j)) (fun j k => W2 (ix2 j k)) (fun k => b2 (ix1 k))
    (fun k l => W3 (ix2 k l)) (fun l => b3 (ix1 l)) (t (ix1 (i 0))) (i 1)

/-- The result array at row `r`, column `l`. -/
theorem network_apply (t : FVec Ideal ⟨1, ![100000]⟩ .f32) (W1 : FVec Ideal ⟨2, ![1, 128]⟩ .f32) (b1 : FVec Ideal ⟨1, ![128]⟩ .f32)
    (W2 : FVec Ideal ⟨2, ![128, 128]⟩ .f32) (b2 : FVec Ideal ⟨1, ![128]⟩ .f32)
    (W3 : FVec Ideal ⟨2, ![128, 5]⟩ .f32) (b3 : FVec Ideal ⟨1, ![5]⟩ .f32) (r : Fin 100000) (l : Fin 5) :
    network t W1 b1 W2 b2 W3 b3 (ix2 r l)
      = rowOut (fun j => W1 (ix2 (0 : Fin 1) j)) (fun j => b1 (ix1 j)) (fun j k => W2 (ix2 j k)) (fun k => b2 (ix1 k))
          (fun k l => W3 (ix2 k l)) (fun l => b3 (ix1 l)) (t (ix1 r)) l := rfl

end Cert.Mlp

end
-- ==== Proof.LibColumn.lean ====
/-
  Column vectors read at an index: a rank-1 array of `a` entries seen as an [a, 1] column, and an [a, 1] column
  broadcast across `b` columns. The library reads the ROW forms ([a] as [1, a]; [1, b] over [a, b]) by coordinates;
  these are the transposed cases, in the same style: the reshape by equating row-major positions, the broadcast by
  giving, per axis of the operand, the coordinate it is read at (0 on its unit axis).
-/
import Idealize.ShloMosaic.Lib.Pipeline.Value
import Idealize.ShloMosaic.Lib.ValueIdx

namespace Cert.Lib.Column

open Idealize.ShloMosaic Idealize.ShloMosaic.ValueIdx

variable {α : Type}

/-- A rank-1 array of `a` entries cast to an [a, 1] column reads, at `(i, u)`, the operand at `i`, whatever the unit
    coordinate `u`: entry `(i, u)` of the column sits at row-major position `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KernelRow.lean ====
/-
  One block of the kernel's result is the network, row by row.

  At a grid point the kernel body holds a block of 4000 scalars as a [4000, 1] column, the first layer's weight row and
  the three biases as [1, ·] rows, and the two weight matrices whole. Its stored value is computed over whole blocks:
  the column and the weight row are each broadcast to [4000, 128] and multiplied entrywise (the first layer needs no
  matrix unit: its contraction would be over one term), the bias row is broadcast down the rows and added, and the
  result rectified; then twice a [4000, 128] × [128, ·] matrix product into a zero accumulator, plus a broadcast bias
  row, the first time rectified.

  Read at row `p` and one column, each of the three intermediate blocks is the matching layer of the row function of
  `Network.lean` at the `p`-th scalar of the block, with the weights read from the loaded blocks by coordinates. A
  matrix product into the zero accumulator is, at an entry, the plain sum over the 128 contraction coordinates of the
  left operand's row entry times the right operand's column entry.
-/
import proofs.«166082_g64828236366229_cont_9to1_m_1379_4_alg».proof.Proof.Gen.KernelIdeal.Skeleton
import proofs.«166082_g64828236366229_cont_9to1_m_1379_4_alg».proof.Proof.Network
import proofs.«166082_g64828236366229_cont_9to1_m_1379_4_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Mlp.Kernel

open Cert.KernelIdeal Cert.KernelIdeal.Gen Idealize.ShloMosaic Idealize.ShloMosaic.ValueIdx Cert.Mlp Cert.Lib.Column

/-! ## The two matrix products at an entry

Both contract the left operand's columns against the right operand's rows, over 128 coordinates. -/

/-- The left operand is read in the output's row … -/
theorem second_lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … at the contraction coordinate as its column; … -/
theorem second_lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- … the right operand at the contraction coordinate as its row … -/
theorem second_rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … in the output's column. -/
theorem second_rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- THE SECOND LAYER'S PRODUCT at row `p`, column `c`: the sum over the 128 first-layer units `j` of the activation `A (p, j)` times the weight `B (j, c)`. -/
theorem second_product_apply (A : FVec Ideal S4000x128 .f32) (B : FVec Ideal S128x128 .f32) (p : Fin 4000) (c : Fin 128) :
    matmul (φ₁ := .f32) (φ₂ := .f32) dot_S4000x128_S128x128_S4000x128_1_0_0_1_n_n none A B (constant (F := Ideal) S4000x128 .f32 0x00000000#32) (ix2 p c)
      = ∑ j : Fin 128, A (ix2 p j) * B (ix2 j c) := by
  refine (Ideal.matmul_constant_zero_apply dot_S4000x128_S128x128_S4000x128_1_0_0_1_n_n none A B (ix2 p c)).trans ?_
  rw [← Equiv.sum_comp (contrEquiv1 dot_S4000x128_S128x128_S4000x128_1_0_0_1_n_n 128 rfl rfl).symm]
  refine Finset.sum_congr rfl fun j _ => ?_
  have hj := contrEquiv1_symm_val dot_S4000x128_S128x128_S4000x128_1_0_0_1_n_n 128 rfl rfl j
  have el : dot_S4000x128_S128x128_S4000x128_1_0_0_1_n_n.lhsIdx (ix2 p c) ((contrEquiv1 dot_S4000x128_S128x128_S4000x128_1_0_0_1_n_n 128 rfl rfl).symm j) = ix2 p j := funext fun a => Fin.ext (by
    match a with
    | ⟨0, _⟩ => exact second_lhs_row _ _
    | ⟨1, _⟩ => exact (second_lhs_col _ _).trans hj)
  have er : dot_S4000x128_S128x128_S4000x128_1_0_0_1_n_n.rhsIdx (ix2 p c) ((contrEquiv1 dot_S4000x128_S128x128_S4000x128_1_0_0_1_n_n 128 rfl rfl).symm j) = ix2 j c := funext fun a => Fin.ext (by
    match a with
    | ⟨0, _⟩ => exact (second_rhs_row _ _).trans hj
    | ⟨1, _⟩ => exact second_rhs_col _ _)
  rw [el, er]

/-- The left operand is read in the output's row … -/
theorem third_lhs_row (i : S4000x5.Idx) (q : dot_S4000x128_S128x5_S4000x5_1_0_0_1_n_n.contr.Idx) :
    (dot_S4000x128_S128x5_S4000x5_1_0_0_1_n_n.lhsIdx i q 0).val = (i 0).val := by
  unfold DotDims.lhsIdx
  rw [dif_neg (show ¬(0 : Fin S4000x128.rank) ∈ dot_S4000x128_S128x5_S4000x5_1_0_0_1_n_n.lhsBatch by decide), dif_pos (show (0 : Fin S4000x128.rank) ∈ dot_S4000x128_S128x5_S4000x5_1_0_0_1_n_n.lhsNonContracting by decide)]
  rfl
/-- … at the contraction coordinate as its column; … -/
theorem third_lhs_col (i : S4000x5.Idx) (q : dot_S4000x128_S128x5_S4000x5_1_0_0_1_n_n.contr.Idx) :
    (dot_S4000x128_S128x5_S4000x5_1_0_0_1_n_n.lhsIdx i q 1).val = (q ⟨0, by decide⟩).val :=
  dot_S4000x128_S128x5_S4000x5_1_0_0_1_n_n.lhsIdx_val_of_single rfl i q
/-- … the right operand at the contraction coordinate as its row … -/
theorem third_rhs_row (i : S4000x5.Idx) (q : dot_S4000x128_S128x5_S4000x5_1_0_0_1_n_n.contr.Idx) :
    (dot_S4000x128_S128x5_S4000x5_1_0_0_1_n_n.rhsIdx i q 0).val = (q ⟨0, by decide⟩).val :=
  dot_S4000x128_S128x5_S4000x5_1_0_0_1_n_n.rhsIdx_val_of_single rfl i q
/-- … in the output's column. -/
theorem third_rhs_col (i : S4000x5.Idx) (q : dot_S4000x128_S128x5_S4000x5_1_0_0_1_n_n.contr.Idx) :
    (dot_S4000x128_S128x5_S4000x5_1_0_0_1_n_n.rhsIdx i q 1).val = (i 1).val := by
  unfold DotDims.rhsIdx
  rw [dif_neg (show ¬(1 : Fin S128x5.rank) ∈ dot_S4000x128_S128x5_S4000x5_1_0_0_1_n_n.rhsBatch by decide), dif_pos (show (1 : Fin S128x5.rank) ∈ dot_S4000x128_S128x5_S4000x5_1_0_0_1_n_n.rhsNonContracting by decide)]
  rfl

/-- THE THIRD LAYER'S PRODUCT at row `p`, column `c`: the sum over the 128 second-layer units `j` of the activation `A (p, j)` times the weight `B (j, c)`. -/
theorem third_product_apply (A : FVec Ideal S4000x128 .f32) (B : FVec Ideal S128x5 .f32) (p : Fin 4000) (c : Fin 5) :
    matmul (φ₁ := .f32) (φ₂ := .f32) dot_S4000x128_S128x5_S4000x5_1_0_0_1_n_n none A B (constant (F := Ideal) S4000x5 .f32 0x00000000#32) (ix2 p c)
      = ∑ j : Fin 128, A (ix2 p j) * B (ix2 j c) := by
  refine (Ideal.matmul_constant_zero_apply dot_S4000x128_S128x5_S4000x5_1_0_0_1_n_n none A B (ix2 p c)).trans ?_
  rw [← Equiv.sum_comp (contrEquiv1 dot_S4000x128_S128x5_S4000x5_1_0_0_1_n_n 128 rfl rfl).symm]
  refine Finset.sum_congr rfl fun j _ => ?_
  have hj := contrEquiv1_symm_val dot_S4000x128_S128x5_S4000x5_1_0_0_1_n_n 128 rfl rfl j
  have el : dot_S4000x128_S128x5_S4000x5_1_0_0_1_n_n.lhsIdx (ix2 p c) ((contrEquiv1 dot_S4000x128_S128x5_S4000x5_1_0_0_1_n_n 128 rfl rfl).symm j) = ix2 p j := funext fun a => Fin.ext (by
    match a with
    | ⟨0, _⟩ => exact third_lhs_row _ _
    | ⟨1, _⟩ => exact (third_lhs_col _ _).trans hj)
  have er : dot_S4000x128_S128x5_S4000x5_1_0_0_1_n_n.rhsIdx (ix2 p c) ((contrEquiv1 dot_S4000x128_S128x5_S4000x5_1_0_0_1_n_n 128 rfl rfl).symm j) = ix2 j c := funext fun a => Fin.ext (by
    match a with
    | ⟨0, _⟩ => exact (third_rhs_row _ _).trans hj
    | ⟨1, _⟩ => exact third_rhs_col _ _)
  rw [el, er]

/-! ## The three layers over a block -/

variable (v0 : Vec Ideal S4000x1 .f32) (v2 v6 : Vec Ideal S1x128 .f32) (v12 : Vec Ideal S128x128 .f32)
  (v14 : Vec Ideal S1x128 .f32) (v20 : Vec Ideal S128x5 .f32) (v22 : Vec Ideal S1x5 .f32)

/-- The first layer over the block: the scalar column times the weight row, entrywise after broadcasting both to
    [4000, 128], plus the bias row, rectified. -/
def blockHidden1 : FVec Ideal S4000x128 .f32 :=
  maximumf (addf (mulf (broadcastTo S4000x128 (shapeCast S4000x1 v0 shapeCasts_S4000x1_S4000x1) broadcasts_S4000x1_S4000x128)
      (broadcastTo S4000x128 v2 broadcasts_S1x128_S4000x128))
    (broadcastTo S4000x128 (shapeCast S1x128 v6 shapeCasts_S1x128_S1x128) broadcasts_S1x128_S4000x128))
    (broadcast S4000x128 (Scalar.ofBits .f32 0x00000000#32 : Ideal .f32))

/-- At row `p`, unit `j`, it is the first hidden layer at the block's `p`-th scalar. -/
theorem blockHidden1_apply (p : Fin 4000) (j : Fin 128) :
    blockHidden1 v0 v2 v6 (ix2 p j)
      = hidden1 (fun j => v2 (ix2 (0 : Fin 1) j)) (fun j => v6 (ix2 (0 : Fin 1) j)) (v0 (ix2 p (0 : Fin 1))) j := by
  unfold blockHidden1
  rw [maximumf_apply, addf_apply, mulf_apply, broadcast_apply, shapeCast_self, shapeCast_self,
    broadcastTo_a1_ab_apply, broadcastTo_1b_ab_apply, broadcastTo_1b_ab_apply]
  rfl

/-- The second layer over the block: the first layer's activations times the [128, 128] weights, plus the bias row,
    rectified. -/
def blockHidden2 : FVec Ideal S4000x128 .f32 :=
  maximumf (addf (matmul (φ₁ := .f32) (φ₂ := .f32) dot_S4000x128_S128x128_S4000x128_1_0_0_1_n_n none (blockHidden1 v0 v2 v6) v12 (constant (F := Ideal) S4000x128 .f32 0x00000000#32))
    (broadcastTo S4000x128 (shapeCast S1x128 v14 shapeCasts_S1x128_S1x128) broadcasts_S1x128_S4000x128))
    (broadcast S4000x128 (Scalar.ofBits .f32 0x00000000#32 : Ideal .f32))

/-- At row `p`, unit `k`, it is the second hidden layer at the block's `p`-th scalar. -/
theorem blockHidden2_apply (p : Fin 4000) (k : Fin 128) :
    blockHidden2 v0 v2 v6 v12 v14 (ix2 p k)
      = hidden2 (fun j => v2 (ix2 (0 : Fin 1) j)) (fun j => v6 (ix2 (0 : Fin 1) j)) (fun j k => v12 (ix2 j k))
          (fun k => v14 (ix2 (0 : Fin 1) k)) (v0 (ix2 p (0 : Fin 1))) k := by
  unfold blockHidden2
  rw [maximumf_apply, addf_apply, second_product_apply, broadcast_apply, shapeCast_self, broadcastTo_1b_ab_apply]
  simp only [blockHidden1_apply]
  rfl

/-- The stored value is the third layer over the block: the second layer's activations times the [128, 5] weights,
    plus the bias row (the body's intermediate values, substituted). -/
theorem stored_eq :
    k0_pay1 (F := Ideal) v0 v2 v6 v12 v14 v20 v22
      = addf (matmul (φ₁ := .f32) (φ₂ := .f32) dot_S4000x128_S128x5_S4000x5_1_0_0_1_n_n none (blockHidden2 v0 v2 v6 v12 v14) v20 (constant (F := Ideal) S4000x5 .f32 0x00000000#32))
          (broadcastTo S4000x5 (shapeCast S1x5 v22 shapeCasts_S1x5_S1x5) broadcasts_S1x5_S4000x5) := rfl

/-- THE STORED BLOCK at row `p`, output `l`, is the network's output `l` at the block's `p`-th scalar, the weights read
    from the loaded blocks by coordinates. -/
theorem stored_apply (p : Fin 4000) (l : Fin 5) :
    k0_pay1 (F := Ideal) v0 v2 v6 v12 v14 v20 v22 (ix2 p l)
      = rowOut (fun j => v2 (ix2 (0 : Fin 1) j)) (fun j => v6 (ix2 (0 : Fin 1) j)) (fun j k => v12 (ix2 j k))
          (fun k => v14 (ix2 (0 : Fin 1) k)) (fun k l => v20 (ix2 k l)) (fun l => v22 (ix2 (0 : Fin 1) l))
          (v0 (ix2 p (0 : Fin 1))) l := by
  rw [stored_eq, addf_apply, third_product_apply, shapeCast_self, broadcastTo_1b_ab_apply]
  simp only [blockHidden2_apply]
  rfl

end Cert.Mlp.Kernel

end
-- ==== Proof.KernelArray.lean ====
/-
  From blocks to the whole result array.

  The region runs the body at 25 grid points. At point `t` it is given rows `4000 t … 4000 t + 3999` of the scalar
  column as its first block, and the whole of each weight array and of each bias row as the others (those windows'
  block index is (0, 0) at every point); it writes back rows `4000 t … 4000 t + 3999` of the [100000, 5] result, all
  five columns. Before the region the host has re-laid four arguments: the 100000 scalars as a [100000, 1] column and
  the three biases as [1, ·] rows.

  So row `p` of the block point `t` writes back is the network at the scalar number `4000 t + p`, which is row
  `4000 t + p` of the result as `Network.lean` states it: what each point writes back is its block of ONE function of
  the argument arrays. Every row `r` lies in the block of point `r / 4000`, so the 25 blocks cover the array, and after
  the run the result array is that function.
-/
import proofs.«166082_g64828236366229_cont_9to1_m_1379_4_alg».proof.Proof.Gen.KernelIdeal.Value
import proofs.«166082_g64828236366229_cont_9to1_m_1379_4_alg».proof.Proof.KernelRow
import Idealize.ShloMosaic.Lib.Pipeline.Value
import Idealize.ShloMosaic.Lib.ValueLayout
import Idealize.ShloMosaic.Lib.StableHlo.Run

noncomputable section

open scoped BigOperators

namespace Cert.Mlp.Kernel

open Cert.KernelIdeal Cert.KernelIdeal.Gen Cert.KernelIdeal.Value Idealize.ShloMosaic Idealize.ShloMosaic.TcCoe
open Idealize.SL.Sem Idealize.ShloMosaic.StableHlo Idealize.ShloMosaic.ValueIdx Cert.Mlp Cert.Lib.Column
open Idealize.ShloMosaic.Pipeline (Dat)

variable (m : (ℓ : Loc nD τ sig) → Buf (Elt Ideal) ℓ) (ρ : Dev nD → PrngReg)

/-! ## The arrays the host re-laid before the region -/

/-- The region finds the 100000 scalars as a [100000, 1] column. -/
theorem column_array (c : Dev nD) :
    (V m c main_v0 : S100000x1.Idx → EReal) = shapeCast S100000x1 (m ((c : Thread nD τ).loc main_arg0)) shapeCasts_S100000_S100000x1 := by
  dsimp only [V, hostOps0]; after_results; rfl

/-- The region finds the first bias as a [1, 128] row. -/
theorem bias1_array (c : Dev nD) :
    (V m c main_v1 : S1x128.Idx → EReal) = shapeCast S1x128 (m ((c : Thread nD τ).loc main_arg2)) shapeCasts_S128_S1x128 := by
  dsimp only [V, hostOps0]; after_results; rfl

/-- The region finds the second bias as a [1, 128] row. -/
theorem bias2_array (c : Dev nD) :
    (V m c main_v2 : S1x128.Idx → EReal) = shapeCast S1x128 (m ((c : Thread nD τ).loc main_arg4)) shapeCasts_S128_S1x128 := by
  dsimp only [V, hostOps0]; after_results; rfl

/-- The region finds the third bias as a [1, 5] row. -/
theorem bias3_array (c : Dev nD) :
    (V m c main_v3 : S1x5.Idx → EReal) = shapeCast S1x5 (m ((c : Thread nD τ).loc main_arg6)) shapeCasts_S5_S1x5 := by
  dsimp only [V, hostOps0]; after_results; rfl

/-! ## Which block each window holds at a point -/

/-- The printed index maps, decided over the 25 points: the scalar column's window and the result's are at block row
    `t`, block column 0; every other window is at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- A grid point is one of 25. -/
theorem point_lt (t : Fin cfg0.N) : t.val < 25 := lt_of_lt_of_eq t.isLt N_0

/-- The array row that row `p` of point `t`'s block is: `4000 t + p`. -/
def rowAt (t : Fin cfg0.N) (p : Fin 4000) : Fin 100000 :=
  ⟨t.val * 4000 + p.val, by have := point_lt t; have := p.isLt; omega⟩

/-! ## The input blocks, read by coordinates -/

/-- Row `p` of the scalar block at point `t` is the scalar number `4000 t + p`. -/
theorem scalar_block (c : Dev nD) (t : Fin cfg0.N) (p : Fin 4000) (u : Fin 1) :
    iblk m c 0 t (ix2 p u) = (m ((c : Thread nD τ).loc main_arg0)) (ix1 (rowAt t p)) := by
  show V m c main_v0 (((cfg0.win 0).blk t).view.emb (ix2 p u)) = _
  have hemb : ((cfg0.win 0).blk t).view.emb (ix2 p u) = ix2 (rowAt t p) u := by
    obtain ⟨e0, e1, -⟩ := index_facts t
    funext a; apply Fin.ext
    match a with
    | ⟨0, _⟩ => show win0_0.index t (0 : Fin 2) * 4000 + 1 * p.val = t.val * 4000 + p.val; rw [e0]; omega
    | ⟨1, _⟩ => show win0_0.index t (1 : Fin 2) * 1 + 1 * u.val = u.val; rw [e1]; omega
  rw [hemb]
  exact (congrFun (column_array m c) _).trans (shapeCast_a_a1_apply _ _ _ _)

/-- The first layer's weight row is held whole at every point. -/
theorem weight1_block (c : Dev nD) (t : Fin cfg0.N) (u : Fin 1) (j : Fin 128) :
    iblk m c 1 t (ix2 u j) = (m ((c : Thread nD τ).loc main_arg1)) (ix2 u j) := by
  show V m c main_arg1 (((cfg0.win 1).blk t).view.emb (ix2 u j)) = _
  have hemb : ((cfg0.win 1).blk t).view.emb (ix2 u j) = ix2 u j := by
    obtain ⟨-, -, e0, e1, -⟩ := index_facts t
    funext a; apply Fin.ext
    match a with
    | ⟨0, _⟩ => show win0_1.index t (0 : Fin 2) * 1 + 1 * u.val = u.val; rw [e0]; omega
    | ⟨1, _⟩ => show win0_1.index t (1 : Fin 2) * 128 + 1 * j.val = j.val; rw [e1]; omega
  rw [hemb, V_main_arg1]

/-- The first bias row is held whole at every point: entry `j` of the bias. -/
theorem bias1_block (c : Dev nD) (t : Fin cfg0.N) (u : Fin 1) (j : Fin 128) :
    iblk m c 2 t (ix2 u j) = (m ((c : Thread nD τ).loc main_arg2)) (ix1 j) := by
  show V m c main_v1 (((cfg0.win 2).blk t).view.emb (ix2 u j)) = _
  have hemb : ((cfg0.win 2).blk t).view.emb (ix2 u j) = ix2 u j := by
    obtain ⟨-, -, -, -, e0, e1, -⟩ := index_facts t
    funext a; apply Fin.ext
    match a with
    | ⟨0, _⟩ => show win0_2.index t (0 : Fin 2) * 1 + 1 * u.val = u.val; rw [e0]; omega
    | ⟨1, _⟩ => show win0_2.index t (1 : Fin 2) * 128 + 1 * j.val = j.val; rw [e1]; omega
  rw [hemb]
  exact (congrFun (bias1_array m c) _).trans (shapeCast_a_1a_apply _ _ _ _)

/-- The second weight matrix is held whole at every point. -/
theorem weight2_block (c : Dev nD) (t : Fin cfg0.N) (j : Fin 128) (k : Fin 128) :
    iblk m c 3 t (ix2 j k) = (m ((c : Thread nD τ).loc main_arg3)) (ix2 j k) := by
  show V m c main_arg3 (((cfg0.win 3).blk t).view.emb (ix2 j k)) = _
  have hemb : ((cfg0.win 3).blk t).view.emb (ix2 j k) = ix2 j k := by
    obtain ⟨-, -, -, -, -, -, e0, e1, -⟩ := index_facts t
    funext a; apply Fin.ext
    match a with
    | ⟨0, _⟩ => show win0_3.index t (0 : Fin 2) * 128 + 1 * j.val = j.val; rw [e0]; omega
    | ⟨1, _⟩ => show win0_3.index t (1 : Fin 2) * 128 + 1 * k.val = k.val; rw [e1]; omega
  rw [hemb, V_main_arg3]

/-- The second bias row is held whole at every point: entry `k` of the bias. -/
theorem bias2_block (c : Dev nD) (t : Fin cfg0.N) (u : Fin 1) (k : Fin 128) :
    iblk m c 4 t (ix2 u k) = (m ((c : Thread nD τ).loc main_arg4)) (ix1 k) := by
  show V m c main_v2 (((cfg0.win 4).blk t).view.emb (ix2 u k)) = _
  have hemb : ((cfg0.win 4).blk t).view.emb (ix2 u k) = ix2 u k := by
    obtain ⟨-, -, -, -, -, -, -, -, e0, e1, -⟩ := index_facts t
    funext a; apply Fin.ext
    match a with
    | ⟨0, _⟩ => show win0_4.index t (0 : Fin 2) * 1 + 1 * u.val = u.val; rw [e0]; omega
    | ⟨1, _⟩ => show win0_4.index t (1 : Fin 2) * 128 + 1 * k.val = k.val; rw [e1]; omega
  rw [hemb]
  exact (congrFun (bias2_array m c) _).trans (shapeCast_a_1a_apply _ _ _ _)

/-- The third weight matrix is held whole at every point. -/
theorem weight3_block (c : Dev nD) (t : Fin cfg0.N) (k : Fin 128) (l : Fin 5) :
    iblk m c 5 t (ix2 k l) = (m ((c : Thread nD τ).loc main_arg5)) (ix2 k l) := by
  show V m c main_arg5 (((cfg0.win 5).blk t).view.emb (ix2 k l)) = _
  have hemb : ((cfg0.win 5).blk t).view.emb (ix2 k l) = ix2 k l := by
    obtain ⟨-, -, -, -, -, -, -, -, -, -, e0, e1, -⟩ := index_facts t
    funext a; apply Fin.ext
    match a with
    | ⟨0, _⟩ => show win0_5.index t (0 : Fin 2) * 128 + 1 * k.val = k.val; rw [e0]; omega
    | ⟨1, _⟩ => show win0_5.index t (1 : Fin 2) * 5 + 1 * l.val = l.val; rw [e1]; omega
  rw [hemb, V_main_arg5]

/-- The third bias row is held whole at every point: entry `l` of the bias. -/
theorem bias3_block (c : Dev nD) (t : Fin cfg0.N) (u : Fin 1) (l : Fin 5) :
    iblk m c 6 t (ix2 u l) = (m ((c : Thread nD τ).loc main_arg6)) (ix1 l) := by
  show V m c main_v3 (((cfg0.win 6).blk t).view.emb (ix2 u l)) = _
  have hemb : ((cfg0.win 6).blk t).view.emb (ix2 u l) = ix2 u l := by
    obtain ⟨-, -, -, -, -, -, -, -, -, -, -, -, e0, e1, -⟩ := index_facts t
    funext a; apply Fin.ext
    match a with
    | ⟨0, _⟩ => show win0_6.index t (0 : Fin 2) * 1 + 1 * u.val = u.val; rw [e0]; omega
    | ⟨1, _⟩ => show win0_6.index t (1 : Fin 2) * 5 + 1 * l.val = l.val; rw [e1]; omega
  rw [hemb]
  exact (congrFun (bias3_array m c) _).trans (shapeCast_a_1a_apply _ _ _ _)

/-! ## What each point writes back -/

/-- The result array as `Network.lean` states it, of the argument arrays as launched on core `c`. -/
abbrev resultArray (c : Dev nD) : S100000x5.Idx → EReal :=
  network (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- Every load and the one store of the body go through the whole of their buffer: offset zero on both axes. -/
theorem offset_zero : (![0, 0] : Fin 2 → Nat) = fun _ => 0 := funext fun a => by fin_cases a <;> rfl

/-- WHAT POINT `t` WRITES BACK is its block — rows `4000 t … 4000 t + 3999`, all five columns — of the result
    array: row `p` of the stored block is the network at the block's `p`-th scalar, which is the scalar number
    `4000 t + p`, with the weights and biases the blocks hold whole. -/
theorem flushed_eq (c : Dev nD) (t : Fin cfg0.N) :
    (dats m 0 c).flushed 7 t = ((cfg0.win 7).blk t).view.read (Elt Ideal) (resultArray m c) := by
  rw [flushed7]
  unfold out0_7
  rw [View.canon_unit_zero offset_zero]
  simp only [View.ld_unit_zero (S := S4000x1) offset_zero, View.ld_unit_zero (S := S1x128) offset_zero,
    View.ld_unit_zero (S := S128x128) offset_zero, View.ld_unit_zero (S := S128x5) offset_zero,
    View.ld_unit_zero (S := S1x5) offset_zero]
  funext y
  obtain ⟨p, l, rfl⟩ : ∃ (p : Fin 4000) (l : Fin 5), y = ix2 p l := ⟨y 0, y 1, eq_ix2 y⟩
  show k0_pay1 (F := Ideal) (iblk m c 0 t) (iblk m c 1 t) (iblk m c 2 t) (iblk m c 3 t) (iblk m c 4 t) (iblk m c 5 t)
      (iblk m c 6 t) (ix2 p l) = resultArray m c (((cfg0.win 7).blk t).view.emb (ix2 p l))
  have hemb : ((cfg0.win 7).blk t).view.emb (ix2 p l) = ix2 (rowAt t p) l := by
    obtain ⟨-, -, -, -, -, -, -, -, -, -, -, -, -, -, e0, e1⟩ := index_facts t
    funext a; apply Fin.ext
    match a with
    | ⟨0, _⟩ => show win0_7.index t (0 : Fin 2) * 4000 + 1 * p.val = t.val * 4000 + p.val; rw [e0]; omega
    | ⟨1, _⟩ => show win0_7.index t (1 : Fin 2) * 5 + 1 * l.val = l.val; rw [e1]; omega
  rw [hemb]
  refine (stored_apply (iblk m c 0 t) (iblk m c 1 t) (iblk m c 2 t) (iblk m c 3 t) (iblk m c 4 t) (iblk m c 5 t)
    (iblk m c 6 t) p l).trans ?_
  simp only [scalar_block, weight1_block, bias1_block, weight2_block, bias2_block, weight3_block, bias3_block]
  rfl

/-! ## The blocks cover the array -/

/-- An index of the result array is in point `t`'s block iff each coordinate is in the block's range on its axis. -/
theorem mem_block (t : Fin cfg0.N) (i : S100000x5.Idx) :
    i ∈ ((cfg0.win 7).blk t).view.set ↔ ∀ a : Fin 2, win0_7.index t a * S4000x5.size a ≤ (i a).val
      ∧ (i a).val < win0_7.index t a * S4000x5.size a + S4000x5.size a := by
  show i ∈ ((View.whole main_v4).slice (win0_7.rect t)).set ↔ _
  rw [View.set_slice_whole, Rect.mem_set_unit]
  exact Iff.rfl

/-- Row `r` of the result lies in the block of point `r / 4000`, and every point writes back. -/
theorem covered (i : S100000x5.Idx) :
    ∃ t : Fin cfg0.N, (cfg0.win 7).flush t = true ∧ i ∈ ((cfg0.win 7).blk t).view.set := by
  have hi0 : (i 0).val < 100000 := (i 0).isLt
  have hi1 : (i 1).val < 5 := (i 1).isLt
  obtain ⟨t, ht⟩ : ∃ t : Fin cfg0.N, t.val = (i 0).val / 4000 :=
    ⟨⟨(i 0).val / 4000, lt_of_lt_of_eq (by omega : (i 0).val / 4000 < 25) N_0.symm⟩, rfl⟩
  refine ⟨t, flush0_7 t, ?_⟩
  rw [mem_block]
  obtain ⟨-, -, -, -, -, -, -, -, -, -, -, -, -, -, e0, e1⟩ := index_facts t
  intro a
  match a with
  | ⟨0, _⟩ =>
    show win0_7.index t (0 : Fin 2) * 4000 ≤ (i 0).val ∧ (i 0).val < win0_7.index t (0 : Fin 2) * 4000 + 4000
    rw [e0, ht]; omega
  | ⟨1, _⟩ =>
    show win0_7.index t (1 : Fin 2) * 5 ≤ (i 1).val ∧ (i 1).val < win0_7.index t (1 : Fin 2) * 5 + 5
    rw [e1]; omega

/-- THE RESULT ARRAY after the run is the network of the argument arrays. -/
theorem final_array (c : Dev nD) : (dats m 0 c).arrAt 7 cfg0.N = resultArray m c :=
  (dats m 0 c).arrAt_eq_of_cover 7 (resultArray m c) (fun t _ => flushed_eq m c t) covered

/-! ## The run, read -/

/-- Every weakly fair execution of the idealized kernel's program terminates with the result array at the network
    of the argument arrays, the arguments unchanged. -/
theorem run : θ_run defs (onTc (τ := τ) (main (F := Ideal))) ⟨m, fun _ => 0, ρ⟩ fun r => ∀ c : Dev nD,
      r.2.mem ((c : Thread nD τ).loc main_v4) = resultArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_array m c), (h c).2⟩) (run_blocks m ρ)

end Cert.Mlp.Kernel

end
-- ==== Proof.ReferenceNetwork.lean ====
/-
  The reference program's result is the network of `Network.lean`.

  The reference computes the three layers over whole arrays: a product of the [100000, 1] column of scalars with the
  [1, 128] weight row (a contraction over an axis of extent ONE, so each entry is a single product), a bias broadcast
  along the rows, a rectifier against a broadcast zero; then twice more a [·, 128] × [128, ·] product and a broadcast
  bias, the second time without a rectifier. Read one entry at a time, each stage is the matching layer of the row
  function at the scalar of that row:
    stage %5  at (r, j) = hidden1 … t_r j,   stage %10 at (r, k) = hidden2 … t_r k,   stage %14 at (r, l) = rowOut … t_r l.
  The only arithmetic fact used is that a sum over a one-element index set is its single term.
-/
import proofs.«166082_g64828236366229_cont_9to1_m_1379_4_alg».proof.Proof.Gen.ReferenceIdeal.Read
import proofs.«166082_g64828236366229_cont_9to1_m_1379_4_alg».proof.Proof.Network

noncomputable section

open scoped BigOperators

namespace Cert.Mlp.Reference

open Cert.ReferenceIdeal Cert.ReferenceIdeal.Read Idealize.ShloMosaic Idealize.ShloMosaic.ValueIdx Cert.Mlp

/-! ## Where each stage reads its operands: the composed index maps, by coordinates -/

/-- The scalar column, broadcast from the rank-1 array, read at (r, ·) is the r-th scalar. -/
theorem scalar_idx (r : Fin 100000) (j : Fin 128) (q : Fin 1) :
    idx_main_v0 (lidx_main_v1 (ix2 r j) q) = ix1 r :=
  funext fun a => by match a with | ⟨0, _⟩ => rfl

/-- The first layer's weight row is read at (q, j), `q` the one contraction coordinate. -/
theorem weight1_idx (r : Fin 100000) (j : Fin 128) (q : Fin 1) :
    ridx_main_v1 (ix2 r j) q = ix2 q j :=
  funext fun a => by match a with | ⟨0, _⟩ => rfl | ⟨1, _⟩ => rfl

/-- The first bias, broadcast along the rows, is read at its column `j`. -/
theorem bias1_idx (r : Fin 100000) (j : Fin 128) :
    idx_main_v2 (idx_main_v3 (ix2 r j)) = ix1 j :=
  funext fun a => by match a with | ⟨0, _⟩ => rfl

/-- The second product reads the first layer's activations along row `r` … -/
theorem act1_idx (r : Fin 100000) (k j : Fin 128) :
    lidx_main_v6 (ix2 r k) j = ix2 r j :=
  funext fun a => by match a with | ⟨0, _⟩ => rfl | ⟨1, _⟩ => rfl

/-- … against column `k` of the second weight matrix. -/
theorem weight2_idx (r : Fin 100000) (k j : Fin 128) :
    ridx_main_v6 (ix2 r k) j = ix2 j k :=
  funext fun a => by match a with | ⟨0, _⟩ => rfl | ⟨1, _⟩ => rfl

/-- The second bias is read at its column `k`. -/
theorem bias2_idx (r : Fin 100000) (k : Fin 128) :
    idx_main_v7 (idx_main_v8 (ix2 r k)) = ix1 k :=
  funext fun a => by match a with | ⟨0, _⟩ => rfl

/-- The third product reads the second layer's activations along row `r` … -/
theorem act2_idx (r : Fin 100000) (l : Fin 5) (k : Fin 128) :
    lidx_main_v11 (ix2 r l) k = ix2 r k :=
  funext fun a => by match a with | ⟨0, _⟩ => rfl | ⟨1, _⟩ => rfl

/-- … against column `l` of the third weight matrix. -/
theorem weight3_idx (r : Fin 100000) (l : Fin 5) (k : Fin 128) :
    ridx_main_v11 (ix2 r l) k = ix2 k l :=
  funext fun a => by match a with | ⟨0, _⟩ => rfl | ⟨1, _⟩ => rfl

/-- The third bias is read at its column `l`. -/
theorem bias3_idx (r : Fin 100000) (l : Fin 5) :
    idx_main_v12 (idx_main_v13 (ix2 r l)) = ix1 l :=
  funext fun a => by match a with | ⟨0, _⟩ => rfl

/-! ## The stages, one entry at a time -/

variable (x0 : (⟨S100000, .f32⟩ : BufTy).Contents (Elt Ideal)) (x1 : (⟨S1x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x5, .f32⟩ : BufTy).Contents (Elt Ideal))
  (x6 : (⟨S5, .f32⟩ : BufTy).Contents (Elt Ideal))

/-- The first rectified stage at (r, j) is the first hidden layer's unit `j` at the r-th scalar: the contraction over
    the axis of extent one is the single product `t_r · W1[0, j]`. -/
theorem stage_hidden1 (r : Fin 100000) (j : Fin 128) :
    val_main_v5 (F := Ideal) x0 x1 x2 (ix2 r j)
      = hidden1 (fun j => x1 (ix2 (0 : Fin 1) j)) (fun j => x2 (ix1 j)) (x0 (ix1 r)) j := by
  rw [val_main_v5_apply, val_main_v4_apply, val_main_v1_apply, val_main_v3_apply, val_main_v2_apply,
    val_main_call0_v0_apply, val_main_call0_cst_apply, Fin.sum_univ_one, val_main_v0_apply,
    scalar_idx, weight1_idx, bias1_idx]
  rfl

/-- The second rectified stage at (r, k) is the second hidden layer's unit `k` at the r-th scalar. -/
theorem stage_hidden2 (r : Fin 100000) (k : Fin 128) :
    val_main_v10 (F := Ideal) x0 x1 x2 x3 x4 (ix2 r k)
      = hidden2 (fun j => x1 (ix2 (0 : Fin 1) j)) (fun j => x2 (ix1 j)) (fun j k => x3 (ix2 j k)) (fun k => x4 (ix1 k))
          (x0 (ix1 r)) k := by
  rw [val_main_v10_apply, val_main_v9_apply, val_main_v6_apply, val_main_v8_apply, val_main_v7_apply,
    val_main_call1_v0_apply, val_main_call1_cst_apply, bias2_idx]
  simp only [act1_idx, weight2_idx, stage_hidden1]
  rfl

/-- THE REFERENCE'S RESULT, as its last stage, is the network of the argument arrays. -/
theorem result_is_network :
    val_main_v14 (F := Ideal) x0 x1 x2 x3 x4 x5 x6 = network x0 x1 x2 x3 x4 x5 x6 := by
  funext i
  obtain ⟨r, l, rfl⟩ : ∃ (r : Fin 100000) (l : Fin 5), i = ix2 r l := ⟨i 0, i 1, eq_ix2 i⟩
  rw [network_apply, val_main_v14_apply, val_main_v11_apply, val_main_v13_apply, val_main_v12_apply, bias3_idx]
  simp only [act2_idx, weight3_idx, stage_hidden2]
  rfl

end Cert.Mlp.Reference

end
-- ==== Proof.lean ====
/-
  A three-layer perceptron applied to each of 100000 scalars, fused into one kernel, against the same three layers
  written as whole-array operations.

  For a scalar `s` the network is
    hidden1 j = max (s · W1[0, j] + b1[j]) 0,   hidden2 k = max (Σ_j hidden1 j · W2[j, k] + b2[k]) 0,
    out l     = Σ_k hidden2 k · W3[k, l] + b3[l],
  with 128 units in each hidden layer and 5 outputs (`Network.lean`). Both programs leave, in row `r` of a
  [100000, 5] array, `out` at the `r`-th scalar.

  The kernel walks the scalars in 25 blocks of 4000 rows, holding the weights and biases whole; the value it stores for
  a block is, row by row, the network at that row's scalar (`KernelRow.lean`: the first layer as an entrywise product
  of two broadcasts, the other two as matrix products into a zero accumulator, each a plain sum over the 128
  contraction coordinates), and the 25 written-back blocks tile the result (`KernelArray.lean`). The reference's stages
  read one entry at a time give the same three layers (`ReferenceNetwork.lean`); its first layer is a matrix product
  whose contraction runs over an axis of extent one, and a sum over one term is that term.

  On the extended reals the two sides are therefore the same expression, term for term: no sum is regrouped and no
  factor moved, so no algebraic law that could fail at an infinity is used, and finiteness of the inputs is not needed.
  The idealizing pass rewrote nothing in this kernel, so the kernel's idealization is its own text read over the
  extended reals and that claim is vacuous.
-/
import proofs.«166082_g64828236366229_cont_9to1_m_1379_4_alg».proof.Defs
import proofs.«166082_g64828236366229_cont_9to1_m_1379_4_alg».proof.Proof.Gen.Kernel
import proofs.«166082_g64828236366229_cont_9to1_m_1379_4_alg».proof.Proof.Gen.Kernel.Frame
import proofs.«166082_g64828236366229_cont_9to1_m_1379_4_alg».proof.Proof.Gen.KernelIdeal
import proofs.«166082_g64828236366229_cont_9to1_m_1379_4_alg».proof.Proof.Gen.KernelIdeal.Frame
import proofs.«166082_g64828236366229_cont_9to1_m_1379_4_alg».proof.Proof.Gen.KernelIdeal.Value
import proofs.«166082_g64828236366229_cont_9to1_m_1379_4_alg».proof.Proof.Gen.ReferenceIdeal
import proofs.«166082_g64828236366229_cont_9to1_m_1379_4_alg».proof.Proof.Gen.ReferenceIdeal.Run
import proofs.«166082_g64828236366229_cont_9to1_m_1379_4_alg».proof.Proof.Gen.ReferenceIdeal.Read
import proofs.«166082_g64828236366229_cont_9to1_m_1379_4_alg».proof.Proof.Gen.Pre_finite_inputs
import proofs.«166082_g64828236366229_cont_9to1_m_1379_4_alg».proof.Proof.KernelArray
import proofs.«166082_g64828236366229_cont_9to1_m_1379_4_alg».proof.Proof.ReferenceNetwork
import Idealize.ShloMosaic.Adequacy
import Idealize.ShloMosaic.Init

noncomputable section

namespace Cert.Proof

open Idealize.ShloMosaic Idealize.ShloMosaic.TcCoe Idealize.SL.Sem

/-- The kernel's program runs to the end without a fault and leaves its arguments as they were. -/
theorem frame_kernel : Cert.frame_Kernel := fun m ρ _ => Cert.Kernel.Gen.frame m ρ

/-- So does the same program read over the extended reals. -/
theorem frame_kernelIdeal : Cert.frame_KernelIdeal := fun m ρ _ => Cert.KernelIdeal.Gen.frame m ρ

/-- So does the reference: its run, with the statement about its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized: there is nothing to preserve. -/
theorem preserves : Cert.preserves_Kernel_KernelIdeal := trivial

/-- Over the extended reals, from memories that agree on the seven arguments, the kernel's result array and the
    reference's are both the network of the arguments: the kernel's by its run read block by block, the reference's by
    its stages read entry by entry. -/
theorem algebraic : Cert.algebraic_KernelIdeal_ReferenceIdeal := by
  intro m ρ m' ρ' _ hagree
  refine ⟨fun c => Cert.Mlp.Kernel.resultArray m c, Cert.Mlp.Kernel.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v14_eq _ _ _ _ _ _ _).trans
    (Cert.Mlp.Reference.result_is_network _ _ _ _ _ _ _)).trans ?_
  rw [(hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
